-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x512x512 : Shape := ⟨4, ![64, 3, 512, 512]⟩
abbrev S_ : Shape := ⟨0, ![]⟩

class Facts : Prop where
  bcast_S_S64x3x512x512 : S_.BroadcastsInDim S64x3x512x512 (![] : Fin 0 → Fin S64x3x512x512.rank)
  reducesTo_S64x3x512x512_S_d0_1_2_3 : S64x3x512x512.ReducesTo [0, 1, 2, 3] S_
  h_S_ : 0 < S_.numel

variable [Facts]

def fn {F : FTy → Type} [FloatOps F] (main_arg0 : FVec F S64x3x512x512 .f32) (main_arg1 : FVec F S64x3x512x512 .f32) (main_arg2 : FVec F S64x3x512x512 .f32) : IVec S_ 1 :=
  let main_v0 : FVec F S64x3x512x512 .f32 := Host.absf main_arg0
  let main_cst : FVec F S_ .f32 := constant S_ .f32 0x7F800000#32
  let main_v1 : FVec F S64x3x512x512 .f32 := broadcastInDim S64x3x512x512 ![] bcast_S_S64x3x512x512 main_cst
  let main_v2 : IVec S64x3x512x512 1 := cmpf .olt main_v0 main_v1
  let main_c : IVec S_ 1 := constantI S_ 1 1#1
  let main_v3 : IVec S_ 1 := (fun x v => Host.reduce IntOp.andi x v reducesTo_S64x3x512x512_S_d0_1_2_3 h_S_) main_v2 main_c
  let main_v4 : FVec F S64x3x512x512 .f32 := Host.absf main_arg1
  let main_cst_0 : FVec F S_ .f32 := constant S_ .f32 0x7F800000#32
  let main_v5 : FVec F S64x3x512x512 .f32 := broadcastInDim S64x3x512x512 ![] bcast_S_S64x3x512x512 main_cst_0
  let main_v6 : IVec S64x3x512x512 1 := cmpf .olt main_v4 main_v5
  let main_c_1 : IVec S_ 1 := constantI S_ 1 1#1
  let main_v7 : IVec S_ 1 := (fun x v => Host.reduce IntOp.andi x v reducesTo_S64x3x512x512_S_d0_1_2_3 h_S_) main_v6 main_c_1
  let main_v8 : IVec S_ 1 := andi main_v3 main_v7
  let main_v9 : FVec F S64x3x512x512 .f32 := Host.absf main_arg2
  let main_cst_2 : FVec F S_ .f32 := constant S_ .f32 0x7F800000#32
  let main_v10 : FVec F S64x3x512x512 .f32 := broadcastInDim S64x3x512x512 ![] bcast_S_S64x3x512x512 main_cst_2
  let main_v11 : IVec S64x3x512x512 1 := cmpf .olt main_v9 main_v10
  let main_c_3 : IVec S_ 1 := constantI S_ 1 1#1
  let main_v12 : IVec S_ 1 := (fun x v => Host.reduce IntOp.andi x v reducesTo_S64x3x512x512_S_d0_1_2_3 h_S_) main_v11 main_c_3
  let main_v13 : IVec S_ 1 := andi main_v8 main_v12
  main_v13
-- ==== Kernel.lean ====
abbrev S64x3x512x512 : Shape := ⟨4, ![64, 3, 512, 512]⟩
abbrev S64x786432 : Shape := ⟨2, ![64, 786432]⟩
abbrev S64x1 : Shape := ⟨2, ![64, 1]⟩
abbrev S32x16384 : Shape := ⟨2, ![32, 16384]⟩
abbrev S32x1 : Shape := ⟨2, ![32, 1]⟩
abbrev S32 : Shape := ⟨1, ![32]⟩
abbrev S64 : Shape := ⟨1, ![64]⟩

abbrev nBuf : Space → Nat
  | .hbm => 8
  | .vmem => 9
  | .smem => 0
  | _ => 0

abbrev bufTy : (tb : Table) → Fin (tcTables nBuf tb) → BufTy
  | .hbm, ⟨0, _⟩ => ⟨S64x3x512x512, .f32⟩
  | .hbm, ⟨1, _⟩ => ⟨S64x3x512x512, .f32⟩
  | .hbm, ⟨2, _⟩ => ⟨S64x3x512x512, .f32⟩
  | .hbm, ⟨3, _⟩ => ⟨S64x786432, .f32⟩
  | .hbm, ⟨4, _⟩ => ⟨S64x786432, .f32⟩
  | .hbm, ⟨5, _⟩ => ⟨S64x786432, .f32⟩
  | .hbm, ⟨6, _⟩ => ⟨S64x1, .f32⟩
  | .hbm, ⟨7, _⟩ => ⟨S64, .f32⟩
  | .local _ .vmem, ⟨0, _⟩ => ⟨S32x16384, .f32⟩
  | .local _ .vmem, ⟨1, _⟩ => ⟨S32x16384, .f32⟩
  | .local _ .vmem, ⟨2, _⟩ => ⟨S32x16384, .f32⟩
  | .local _ .vmem, ⟨3, _⟩ => ⟨S32x16384, .f32⟩
  | .local _ .vmem, ⟨4, _⟩ => ⟨S32x16384, .f32⟩
  | .local _ .vmem, ⟨5, _⟩ => ⟨S32x16384, .f32⟩
  | .local _ .vmem, ⟨6, _⟩ => ⟨S32x1, .f32⟩
  | .local _ .vmem, ⟨7, _⟩ => ⟨S32x1, .f32⟩
  | .local _ .vmem, ⟨8, _⟩ => ⟨S32x1, .f32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 48], ![false, false]⟩

def k0_cond2 (i : grid0.Coords) : BitVec 1 :=
  let arg1 : BitVec 32 := BitVec.ofNat 32 (i 1).val
  let c47_i32 : BitVec 32 := 47#32
  let v69 : BitVec 1 := Scalar.cmpi .eq arg1 c47_i32
  let v70 : BitVec 32 := Scalar.extui v69
  let c0_i32_29 : BitVec 32 := 0#32
  let v71 : BitVec 1 := Scalar.cmpi .ne v70 c0_i32_29
  v71

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S64x3x512x512_S64x786432 : S64x3x512x512.ShapeCasts S64x786432
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S32x16384_S32x16384_0_0 : ∀ a, (![0, 0] : Fin 2 → Nat) a + S32x16384.size a ≤ S32x16384.size a
  h_S32x16384 : 0 < S32x16384.numel
  shapeCasts_S32x16384_S32x16384 : S32x16384.ShapeCasts S32x16384
  reduces_S32x16384_S32 : S32x16384.Reduces [1] S32
  shapeCasts_S32_S32x1 : S32.ShapeCasts S32x1
  shapeCasts_S64x1_S64 : S64x1.ShapeCasts S64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x16384.size a ≤ S64x786432.size a
  hwx0_0 : ∀ i : grid0.Coords, EltTy.bits .f32 = 32 ∨ (Rect.block (s := S64x786432) S32x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x16384.size a ≤ S64x786432.size a
  hwx0_1 : ∀ i : grid0.Coords, EltTy.bits .f32 = 32 ∨ (Rect.block (s := S64x786432) S32x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x16384.size a ≤ S64x786432.size a
  hwx0_2 : ∀ i : grid0.Coords, EltTy.bits .f32 = 32 ∨ (Rect.block (s := S64x786432) S32x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S64x1.size a
  hwx0_3 : ∀ i : grid0.Coords, EltTy.bits .f32 = 32 ∨ (Rect.block (s := S64x1) S32x1.size (cc0_transform_3 i) (hinb0_3 i)).WholeWords (EltTy.packing .f32)

variable [Facts₀]

abbrev win0_0 : Pipeline.Window sig grid0 :=
  Pipeline.Window.ofSpec (Memref.whole main_v0) S32x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S32x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x3x512x512 : Shape := ⟨4, ![64, 3, 512, 512]⟩
abbrev S_ : Shape := ⟨0, ![]⟩
abbrev S64x786432 : Shape := ⟨2, ![64, 786432]⟩
abbrev S64 : Shape := ⟨1, ![64]⟩

abbrev nBuf : Space → Nat
  | .hbm => 77
  | .vmem => 0
  | .smem => 0
  | _ => 0

abbrev bufTy : (tb : Table) → Fin (tcTables nBuf tb) → BufTy
  | .hbm, ⟨0, _⟩ => ⟨S64x3x512x512, .f32⟩
  | .hbm, ⟨1, _⟩ => ⟨S64x3x512x512, .f32⟩
  | .hbm, ⟨2, _⟩ => ⟨S64x3x512x512, .f32⟩
  | .hbm, ⟨3, _⟩ => ⟨S_, .f32⟩
  | .hbm, ⟨4, _⟩ => ⟨S64x3x512x512, .f32⟩
  | .hbm, ⟨5, _⟩ => ⟨S64x3x512x512, .f32⟩
  | .hbm, ⟨6, _⟩ => ⟨S_, .f32⟩
  | .hbm, ⟨7, _⟩ => ⟨S64x3x512x512, .f32⟩
  | .hbm, ⟨8, _⟩ => ⟨S64x3x512x512, .f32⟩
  | .hbm, ⟨9, _⟩ => ⟨S_, .f32⟩
  | .hbm, ⟨10, _⟩ => ⟨S64x3x512x512, .f32⟩
  | .hbm, ⟨11, _⟩ => ⟨S64x3x512x512, .f32⟩
  | .hbm, ⟨12, _⟩ => ⟨S64x3x512x512, .f32⟩
  | .hbm, ⟨13, _⟩ => ⟨S_, .f32⟩
  | .hbm, ⟨14, _⟩ => ⟨S64x3x512x512, .f32⟩
  | .hbm, ⟨15, _⟩ => ⟨S64x3x512x512, .f32⟩
  | .hbm, ⟨16, _⟩ => ⟨S_, .f32⟩
  | .hbm, ⟨17, _⟩ => ⟨S64x3x512x512, .f32⟩
  | .hbm, ⟨18, _⟩ => ⟨S64x3x512x512, .f32⟩
  | .hbm, ⟨19, _⟩ => ⟨S_, .f32⟩
  | .hbm, ⟨20, _⟩ => ⟨S64x3x512x512, .f32⟩
  | .hbm, ⟨21, _⟩ => ⟨S64x3x512x512, .f32⟩
  | .hbm, ⟨22, _⟩ => ⟨S_, .f32⟩
  | .hbm, ⟨23, _⟩ => ⟨S64x3x512x512, .f32⟩
  | .hbm, ⟨24, _⟩ => ⟨S64x3x512x512, .f32⟩
  | .hbm, ⟨25, _⟩ => ⟨S64x3x512x512, .f32⟩
  | .hbm, ⟨26, _⟩ => ⟨S64x3x512x512, .f32⟩
  | .hbm, ⟨27, _⟩ => ⟨S64x3x512x512, .f32⟩
  | .hbm, ⟨28, _⟩ => ⟨S_, .f32⟩
  | .hbm, ⟨29, _⟩ => ⟨S64x3x512x512, .f32⟩
  | .hbm, ⟨30, _⟩ => ⟨S64x3x512x512, .f32⟩
  | .hbm, ⟨31, _⟩ => ⟨S64x3x512x512, .f32⟩
  | .hbm, ⟨32, _⟩ => ⟨S_, .f32⟩
  | .hbm, ⟨33, _⟩ => ⟨S64x3x512x512, .f32⟩
  | .hbm, ⟨34, _⟩ => ⟨S64x3x512x512, .f32⟩
  | .hbm, ⟨35, _⟩ => ⟨S64x3x512x512, .f32⟩
  | .hbm, ⟨36, _⟩ => ⟨S64x3x512x512, .f32⟩
  | .hbm, ⟨37, _⟩ => ⟨S64x3x512x512, .f32⟩
  | .hbm, ⟨38, _⟩ => ⟨S_, .f32⟩
  | .hbm, ⟨39, _⟩ => ⟨S64x3x512x512, .f32⟩
  | .hbm, ⟨40, _⟩ => ⟨S64x3x512x512, .f32⟩
  | .hbm, ⟨41, _⟩ => ⟨S64x3x512x512, .f32⟩
  | .hbm, ⟨42, _⟩ => ⟨S_, .f32⟩
  | .hbm, ⟨43, _⟩ => ⟨S64x3x512x512, .f32⟩
  | .hbm, ⟨44, _⟩ => ⟨S64x3x512x512, .f32⟩
  | .hbm, ⟨45, _⟩ => ⟨S_, .f32⟩
  | .hbm, ⟨46, _⟩ => ⟨S64x3x512x512, .f32⟩
  | .hbm, ⟨47, _⟩ => ⟨S64x3x512x512, .f32⟩
  | .hbm, ⟨48, _⟩ => ⟨S_, .f32⟩
  | .hbm, ⟨49, _⟩ => ⟨S64x3x512x512, .f32⟩
  | .hbm, ⟨50, _⟩ => ⟨S64x3x512x512, .f32⟩
  | .hbm, ⟨51, _⟩ => ⟨S64x3x512x512, .f32⟩
  | .hbm, ⟨52, _⟩ => ⟨S_, .f32⟩
  | .hbm, ⟨53, _⟩ => ⟨S64x3x512x512, .f32⟩
  | .hbm, ⟨54, _⟩ => ⟨S64x3x512x512, .f32⟩
  | .hbm, ⟨55, _⟩ => ⟨S64x3x512x512, .f32⟩
  | .hbm, ⟨56, _⟩ => ⟨S64x3x512x512, .f32⟩
  | .hbm, ⟨57, _⟩ => ⟨S64x3x512x512, .f32⟩
  | .hbm, ⟨58, _⟩ => ⟨S_, .f32⟩
  | .hbm, ⟨59, _⟩ => ⟨S64x3x512x512, .f32⟩
  | .hbm, ⟨60, _⟩ => ⟨S64x3x512x512, .f32⟩
  | .hbm, ⟨61, _⟩ => ⟨S64x3x512x512, .f32⟩
  | .hbm, ⟨62, _⟩ => ⟨S_, .f32⟩
  | .hbm, ⟨63, _⟩ => ⟨S64x3x512x512, .f32⟩
  | .hbm, ⟨64, _⟩ => ⟨S64x3x512x512, .f32⟩
  | .hbm, ⟨65, _⟩ => ⟨S_, .f32⟩
  | .hbm, ⟨66, _⟩ => ⟨S64x3x512x512, .f32⟩
  | .hbm, ⟨67, _⟩ => ⟨S64x3x512x512, .f32⟩
  | .hbm, ⟨68, _⟩ => ⟨S64x3x512x512, .f32⟩
  | .hbm, ⟨69, _⟩ => ⟨S_, .f32⟩
  | .hbm, ⟨70, _⟩ => ⟨S_, .f32⟩
  | .hbm, ⟨71, _⟩ => ⟨S64x3x512x512, .f32⟩
  | .hbm, ⟨72, _⟩ => ⟨S64x3x512x512, .f32⟩
  | .hbm, ⟨73, _⟩ => ⟨S64x3x512x512, .f32⟩
  | .hbm, ⟨74, _⟩ => ⟨S64x786432, .f32⟩
  | .hbm, ⟨75, _⟩ => ⟨S_, .f32⟩
  | .hbm, ⟨76, _⟩ => ⟨S64, .f32⟩
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_9 : Ref sig .tc := ⟨.hbm, 42, rfl⟩
abbrev main_v29 : Ref sig .tc := ⟨.hbm, 43, rfl⟩
abbrev main_v30 : Ref sig .tc := ⟨.hbm, 44, rfl⟩
abbrev main_cst_10 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_16 : Ref sig .tc := ⟨.hbm, 69, rfl⟩
abbrev main_call1_v0 : Ref sig .tc := ⟨.hbm, 70, rfl⟩
abbrev main_call1_v1 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_17 : Ref sig .tc := ⟨.hbm, 75, rfl⟩
abbrev main_v52 : Ref sig .tc := ⟨.hbm, 76, rfl⟩

abbrev nD : Nat := 1
abbrev τ : Topo := Topo.v7x

variable {F : FTy → Type} [FloatOps F]

class Facts₀ : Prop where
  bcast_S_S64x3x512x512 : S_.BroadcastsInDim S64x3x512x512 (![] : Fin 0 → Fin S64x3x512x512.rank)
  shapeCasts_S64x3x512x512_S64x786432 : S64x3x512x512.ShapeCasts S64x786432
  reducesTo_S64x786432_S64_d1 : S64x786432.ReducesTo [1] S64
  h_S_ : 0 < S_.numel

variable [Facts₀]

class Facts : Prop extends Facts₀ where

variable [Facts]
-- ==== Proof.LibTileSum.lean ====
/-
  Sums over a long axis, cut into equal tiles.

  A sum over the `P * Q` positions of an axis is the sum, tile by tile, of the `Q` positions of each of the
  `P` consecutive tiles: position `Q * p + j` is position `j` of tile `p`. This holds in any commutative
  additive monoid — in particular over the extended reals, where addition is commutative and associative
  with no side condition, so no finiteness is asked of the summands.
-/
import Mathlib.Algebra.BigOperators.Fin
import Mathlib.Algebra.BigOperators.Group.Finset.Basic
import Mathlib.Logic.Equiv.Fin.Basic

namespace Cert.TileSum

/-- The sum of `f` over the first `P` tiles of width `Q`, each tile summed position by position, is the sum of
    `f` over the `P * Q` positions: `∑ p < P, ∑ j < Q, f (Q · p + j) = ∑ k < P · Q, f k`, in any commutative additive
    monoid (the extended reals among them, with no finiteness asked). -/
theorem sum_tiles {M : Type*} [AddCommMonoid M] (P Q : ℕ) (f : ℕ → M) :
    ∑ p ∈ Finset.range P, ∑ j : Fin Q, f (Q * p + j.val) = ∑ k : Fin (P * Q), f k.val := by
  rw [Finset.sum_range (fun p => ∑ j : Fin Q, f (Q * p + j.val))]
  rw [← Fintype.sum_prod_type' (f := fun (p : Fin P) (j : Fin Q) => f (Q * p.val + j.val))]
  refine Fintype.sum_equiv finProdFinEquiv _ _ (fun x => ?_)
  rw [finProdFinEquiv_apply_val, add_comm]

end Cert.TileSum
-- ==== Proof.LogLik.lean ====
/-
  The discretized-Gaussian log-likelihood, as one function of the three argument arrays.

  For one element with mean `μ`, log-variance `λ` and observation `x`:
    * the observation is binned: `c(x) = (2 · round((x + 1) / 2 · 255) + 1) / 256 − 1`, the centre of its bin, the
      rounding to nearest with ties to even;
    * with `σ⁻¹ = exp (−λ)` and `Φ(v) = ½ · (1 + tanh (√(2/π) · (v + 0.044715 · v³)))` (the tanh approximation of the normal
      distribution function), the term is `log (max (10⁻¹⁰, Φ(σ⁻¹ · (μ − c(x) + 1/255)) − Φ(σ⁻¹ · (μ − c(x) − 1/255))))`;
    * the result for batch row `i` is the sum of the terms over the `786432 = 3 · 512 · 512` positions of the row.
  Every constant is the extended real its f32 word denotes; the same words occur on both sides of the certificate, so
  none of them is ever evaluated.

  A row of `786432` positions is `48` tiles of `16384`. `partialRow … i q` is the sum over the first `q + 1` tiles of row
  `i`; it grows by one tile at a time (`partialRow_succ`) and the last one is the whole row's sum (`partialRow_last`).
  Addition on the extended reals is commutative and associative with no side condition, so regrouping the sum needs
  no finiteness of the terms.
-/
import Idealize.ShloMosaic.PureOps.Ideal
import Idealize.ShloMosaic.PureOps.Ideal.Laws
import Idealize.ShloMosaic.Lib.ValueIdx
import proofs.«114830_j23905787969963_1_alg».proof.Proof.LibTileSum

noncomputable section

namespace Cert.LogLik

open Idealize.ShloMosaic Idealize.ShloMosaic.ValueIdx

/-- The extended real an f32 word denotes. -/
abbrev w (b : BitVec 32) : EReal := Ideal.ofBits .f32 b

/-- The centre of the bin the observation `x` falls in: `(2 · round((x + 1) / 2 · 255) + 1) / 256 − 1`. -/
def binCentre (x : EReal) : EReal :=
  Ideal.div (w 0x40000000#32 * Ideal.liftRound Ideal.roundHalfEven (Ideal.div (x + w 0x3F800000#32) (w 0x40000000#32) * w 0x437F0000#32)
    + w 0x3F800000#32) (w 0x43800000#32) - w 0x3F800000#32

/-- The tanh approximation of the standard normal distribution function. -/
def cdf (v : EReal) : EReal :=
  w 0x3F000000#32 * (w 0x3F800000#32 + Ideal.tanh (w 0x3F4C422A#32 * (v + w 0x3D372713#32 * v * v * v)))

/-- One element's log-likelihood term. -/
def ll (mu lv x : EReal) : EReal :=
  Ideal.log (max (w 0x2EDBE6FF#32)
    (cdf (Ideal.exp (-lv) * (mu - binCentre x + w 0x3B808081#32))
      - cdf (Ideal.exp (-lv) * (mu - binCentre x - w 0x3B808081#32))))

/-- The arrays flattened to one row per batch entry. -/
abbrev Flat : Shape := ⟨2, ![64, 786432]⟩

variable (a b x : Flat.Idx → EReal)

/-- The result: per batch row, the sum of the terms over the row. -/
def rowLL : (⟨1, ![64]⟩ : Shape).Idx → EReal :=
  fun i => ∑ k : Fin 786432, ll (a (ix2 (i 0) k)) (b (ix2 (i 0) k)) (x (ix2 (i 0) k))

theorem rowLL_apply (i : (⟨1, ![64]⟩ : Shape).Idx) :
    rowLL a b x i = ∑ k : Fin 786432, ll (a (ix2 (i 0) k)) (b (ix2 (i 0) k)) (x (ix2 (i 0) k)) := rfl

/-- The term at row `i`, position `k`, by natural-number coordinates (zero outside the arrays, where nothing reads it). -/
def cell (i k : ℕ) : EReal :=
  if h : i < 64 ∧ k < 786432 then
    ll (a (ix2 (⟨i, h.1⟩ : Fin 64) (⟨k, h.2⟩ : Fin 786432))) (b (ix2 (⟨i, h.1⟩ : Fin 64) (⟨k, h.2⟩ : Fin 786432)))
      (x (ix2 (⟨i, h.1⟩ : Fin 64) (⟨k, h.2⟩ : Fin 786432)))
  else 0

theorem cell_of_lt {i k : ℕ} (hi : i < 64) (hk : k < 786432) :
    cell a b x i k = ll (a (ix2 (⟨i, hi⟩ : Fin 64) (⟨k, hk⟩ : Fin 786432))) (b (ix2 (⟨i, hi⟩ : Fin 64) (⟨k, hk⟩ : Fin 786432)))
      (x (ix2 (⟨i, hi⟩ : Fin 64) (⟨k, hk⟩ : Fin 786432))) :=
  dif_pos ⟨hi, hk⟩

/-- Tile `p` of row `i`: the sum of its `16384` terms. -/
def tile (i p : ℕ) : EReal := ∑ j : Fin 16384, cell a b x i (16384 * p + j.val)

theorem tile_apply (i p : ℕ) : tile a b x i p = ∑ j : Fin 16384, cell a b x i (16384 * p + j.val) := rfl

/-- The sum of the first `q + 1` tiles of row `i`. -/
def partialRow (i q : ℕ) : EReal := ∑ p ∈ Finset.range (q + 1), tile a b x i p

theorem partialRow_zero (i : ℕ) : partialRow a b x i 0 = tile a b x i 0 := by
  unfold partialRow; rw [Finset.sum_range_one]

theorem partialRow_succ (i q : ℕ) : partialRow a b x i (q + 1) = partialRow a b x i q + tile a b x i (q + 1) := by
  unfold partialRow; rw [Finset.sum_range_succ]

/-- All `48` tiles of a row make the row's sum. -/
theorem partialRow_last (i : Fin 64) : partialRow a b x i.val 47 = rowLL a b x (ix1 i) := by
  unfold partialRow tile
  refine (Cert.TileSum.sum_tiles 48 16384 (cell a b x i.val)).trans ?_
  show ∑ k : Fin 786432, cell a b x i.val k.val = _
  exact Finset.sum_congr rfl fun k _ => cell_of_lt a b x i.isLt k.isLt

/- The sums range over index sets of `786432` and `16384` elements: they are opened only through the equations above,
   never by unfolding. -/
attribute [irreducible] rowLL tile partialRow

end Cert.LogLik

end
-- ==== Proof.Pieces.lean ====
/-
  What one grid point leaves in the accumulator.

  The body keeps a running sum of row totals in a [32, 1] scratch buffer across the grid's second axis. At every point it
  stores, over the whole buffer, `acc + rowsum (term (mean, logvar, x))` of the point's three input blocks, where `acc` is what
  it has just read back from the buffer:
    * at the first point of a row block the buffer has just been reset, so `acc` is the zero block;
    * at every later point `acc` is what the previous point left;
    * at the last point of a row block the body copies the buffer, after the store, into the output block.
  Each of the three control cases ends with one store covering the buffer (the first case: the reset, then that store over
  it), so the buffer's contents after the point are that store's value. Stated for any float instance.
-/
import proofs.«114830_j23905787969963_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Accum

open Cert.KernelIdeal Cert.KernelIdeal.Gen

variable {F : FTy → Type} [FloatOps F]

theorem origin : (![0, 0] : Fin 2 → Nat) = fun _ => 0 := funext fun a => by fin_cases a <;> rfl

/-- The point's update of the accumulator: the block `acc` plus the row sums of the terms of the three input blocks
    (`x0` the means, `x1` the log-variances, `x2` the observations). -/
abbrev step (x0 x1 x2 : Vec F S32x16384 .f32) (acc : Vec F S32x1 .f32) : Vec F S32x1 .f32 :=
  k0_pay1 (k0_pay3 x1) (k0_pay4 x0 x2) (k0_pay5 x0 x1 x2) acc

/-- The zero block the reset stores. -/
abbrev zeroBlock : Vec F S32x1 .f32 := k0_pay2

/-- First point of a row block: the reset, then the update of the zero block. -/
theorem scratch_first (c : Dev nD) (i : grid0.Coords) (a2 : Memref sig .tc .vmem S32x16384 .f32) (h2 : a2.IsWhole) (a3 : Memref sig .tc .vmem S32x16384 .f32) (h3 : a3.IsWhole) (a4 : Memref sig .tc .vmem S32x16384 .f32) (h4 : a4.IsWhole) (a5 : Memref sig .tc .vmem S32x1 .f32) (h5 : a5.IsWhole) (a6 : Memref sig .tc .vmem S32x1 .f32) (h6 : a6.IsWhole) (hc0 : cond0_0 i) (hc1 : ¬cond0_1 i)
    (x0 x1 x2 : Vec F S32x16384 .f32) :
    sout0_A_0 c i a2 h2 a3 h3 a4 h4 a5 h5 a6 h6 hc0 hc1 x0 x1 x2 = step x0 x1 x2 zeroBlock := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S32x1) origin, View.readCov_unit_zero (S := S32x1) _ origin]
  simp only [View.readAt_eq_ld, h2.read_unread, h3.read_unread, h4.read_unread, h6.read_unread,
    View.ld_unit_zero (S := S32x16384) origin, View.ld_unit_zero (S := S32x1) origin]

/-- A middle point: the update of what the previous point left. -/
theorem scratch_middle (c : Dev nD) (i : grid0.Coords) (a2 : Memref sig .tc .vmem S32x16384 .f32) (h2 : a2.IsWhole) (a3 : Memref sig .tc .vmem S32x16384 .f32) (h3 : a3.IsWhole) (a4 : Memref sig .tc .vmem S32x16384 .f32) (h4 : a4.IsWhole) (a5 : Memref sig .tc .vmem S32x1 .f32) (h5 : a5.IsWhole) (a6 : Memref sig .tc .vmem S32x1 .f32) (h6 : a6.IsWhole) (hc0 : ¬cond0_0 i) (hc1 : ¬cond0_1 i)
    (x0 x1 x2 : Vec F S32x16384 .f32) (acc : Vec F S32x1 .f32) :
    sout0_B_0 c i a2 h2 a3 h3 a4 h4 a5 h5 a6 h6 hc0 hc1 x0 x1 x2 acc = step x0 x1 x2 acc := by
  unfold sout0_B_0
  rw [View.read_writes_eq_canon _ _ _ (scover0_B_0 c i a2 h2 a3 h3 a4 h4 a5 h5 a6 h6 hc0 hc1 x0 x1 x2 acc)]
  unfold kernelRun0_B
  dsimp only
  sl_unfold_words
  rw [View.canon_unit_zero origin]
  simp only [View.readAt_eq_ld, h2.read_unread, h3.read_unread, h4.read_unread, h6.read_unread,
    View.ld_unit_zero (S := S32x16384) origin, View.ld_unit_zero (S := S32x1) origin]

/-- Last point of a row block: the same update in the accumulator, -/
theorem scratch_last (c : Dev nD) (i : grid0.Coords) (a2 : Memref sig .tc .vmem S32x16384 .f32) (h2 : a2.IsWhole) (a3 : Memref sig .tc .vmem S32x16384 .f32) (h3 : a3.IsWhole) (a4 : Memref sig .tc .vmem S32x16384 .f32) (h4 : a4.IsWhole) (a5 : Memref sig .tc .vmem S32x1 .f32) (h5 : a5.IsWhole) (a6 : Memref sig .tc .vmem S32x1 .f32) (h6 : a6.IsWhole) (hc0 : ¬cond0_0 i) (hc1 : cond0_1 i)
    (x0 x1 x2 : Vec F S32x16384 .f32) (acc : Vec F S32x1 .f32) :
    sout0_C_0 c i a2 h2 a3 h3 a4 h4 a5 h5 a6 h6 hc0 hc1 x0 x1 x2 acc = step x0 x1 x2 acc := by
  unfold sout0_C_0
  rw [View.read_writes_eq_canon _ _ _ (scover0_C_0 c i a2 h2 a3 h3 a4 h4 a5 h5 a6 h6 hc0 hc1 x0 x1 x2 acc)]
  unfold kernelRun0_C
  dsimp only
  sl_unfold_words
  rw [View.canon_unit_zero origin]
  simp only [View.readAt_eq_ld, h2.read_unread, h3.read_unread, h4.read_unread, h6.read_unread,
    View.ld_unit_zero (S := S32x16384) origin, View.ld_unit_zero (S := S32x1) origin]

/-- and the output block holds a copy of it. -/
theorem out_last (c : Dev nD) (i : grid0.Coords) (a2 : Memref sig .tc .vmem S32x16384 .f32) (h2 : a2.IsWhole) (a3 : Memref sig .tc .vmem S32x16384 .f32) (h3 : a3.IsWhole) (a4 : Memref sig .tc .vmem S32x16384 .f32) (h4 : a4.IsWhole) (a5 : Memref sig .tc .vmem S32x1 .f32) (h5 : a5.IsWhole) (a6 : Memref sig .tc .vmem S32x1 .f32) (h6 : a6.IsWhole) (hc0 : ¬cond0_0 i) (hc1 : cond0_1 i)
    (x0 x1 x2 : Vec F S32x16384 .f32) (acc : Vec F S32x1 .f32) :
    out0_C_3 c i a2 h2 a3 h3 a4 h4 a5 h5 a6 h6 hc0 hc1 x0 x1 x2 acc = step x0 x1 x2 acc := by
  unfold out0_C_3
  rw [View.read_writes_eq_canon _ _ _ (cover0_C_3 c i a2 h2 a3 h3 a4 h4 a5 h5 a6 h6 hc0 hc1 x0 x1 x2 acc)]
  unfold kernelRun0_C
  dsimp only
  sl_unfold_words
  rw [View.canon_unit_zero origin]
  simp only [View.readAt_eq_ld, h2.read_unread, h3.read_unread, h4.read_unread, h6.read_unread,
    View.ld_unit_zero (S := S32x16384) origin, View.ld_unit_zero (S := S32x1) origin,
    View.readCov_unit_zero (S := S32x1) _ origin]

end Cert.KernelIdeal.Accum

end
-- ==== Proof.StepAt.lean ====
/-
  The accumulator's update, read at a row, over the extended reals.

  With `x0`, `x1`, `x2` a point's [32, 16384] blocks of means, log-variances and observations and `acc` the [32, 1] block
  the body read back, the stored block at row `r` is `acc r + ∑ j, term (x0 (r, j)) (x1 (r, j)) (x2 (r, j))`:
  the lane reduction is the sum over the `16384` lanes of the row, the casts between [32] and [32, 1] only rename the
  index, every pointwise operation is the exact one on the extended reals, and `exp (0 − λ)` is `exp (−λ)`.
-/
import proofs.«114830_j23905787969963_1_alg».proof.Proof.Gen.KernelIdeal.Frame
import proofs.«114830_j23905787969963_1_alg».proof.Proof.LogLik
import proofs.«114830_j23905787969963_1_alg».proof.Proof.Pieces
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Accum

open Cert.KernelIdeal Cert.KernelIdeal.Gen Cert.LogLik

/-- Inserting lane `j` into the reduced index `r` gives the block index `(r, j)`. -/
theorem lane_index (r : Fin 32) (j : Fin 16384) : reduces_S32x16384_S32.lift (ix1 r) j = ix2 r j :=
  funext fun a => Fin.ext (by match a with | ⟨0, _⟩ => rfl | ⟨1, _⟩ => rfl)

/-- The zero block is zero at every row. -/
theorem zeroBlock_apply (r : Fin 32) (u : Fin 1) : (zeroBlock (F := Ideal)) (ix2 r u) = 0 := by
  show k0_pay2 (F := Ideal) (ix2 r u) = 0
  simp only [k0_pay2, shapeCast_self, broadcast, Scalar.ofBits, Ideal.ofBits_def, Ideal.ofBits_zero_f32]

/-- The update at row `r`: what was there plus the sum of the row's `16384` terms. -/
theorem step_apply (x0 x1 x2 : Vec Ideal S32x16384 .f32) (acc : Vec Ideal S32x1 .f32) (r : Fin 32) (u : Fin 1) :
    step (F := Ideal) x0 x1 x2 acc (ix2 r u)
      = acc (ix2 r u) + ∑ j : Fin 16384, ll (x0 (ix2 r j)) (x1 (ix2 r j)) (x2 (ix2 r j)) := by
  unfold step k0_pay1
  dsimp only
  refine (congrFun (shapeCast_self _ _) (ix2 r u)).trans ?_
  refine congrArg (acc (ix2 r u) + ·) ?_
  refine (shapeCast_apply _ shapeCasts_S32_S32x1 (ix2 r u) (ix1 r) ?_).trans ?_
  · rw [Shape.rowMajor_val_one, Shape.rowMajor_val_two]; have := u.isLt; show r.val = r.val * 1 + u.val; omega
  refine (Ideal.multiReduction_add_single _ _ _ _ _ _).trans ?_
  refine Finset.sum_congr rfl fun (j : Fin 16384) _ => ?_
  refine (congrArg _ (lane_index r j)).trans ?_
  unfold k0_pay5 k0_pay4 k0_pay3
  simp only [shapeCast_self, log, maximumf, subf, mulf, addf, tanh, exp, divf, roundeven, broadcast, Scalar.ofBits,
    Ideal.log_def, Ideal.maximumf_def, Ideal.subf_def, Ideal.mulf_def, Ideal.addf_def, Ideal.tanh_def, Ideal.exp_def,
    Ideal.divf_def, Ideal.roundeven_def, Ideal.ofBits_def, Ideal.ofBits_zero_f32, zero_sub]
  rfl

end Cert.KernelIdeal.Accum

end
-- ==== Proof.Running.lean ====
/-
  The accumulator after each grid point is a partial row sum.

  The grid is 2 × 48: point `n` works on row block `n / 48` (rows `32 · (n / 48) …`) and on tile `n % 48` of those rows
  (positions `16384 · (n % 48) …`). Each of the three input windows reads, at point `n`, exactly that [32, 16384] tile
  of its flattened array. So the update at point `n`, row `r`, adds tile `n % 48` of row `32 · (n / 48) + r`; the
  accumulator is reset at the points with `n % 48 = 0`; hence after point `n` it holds, at row `r`, the sum of tiles
  `0 … n % 48` of that row — by induction on the point. At the points with `n % 48 = 47` the output block holds the same.
-/
import proofs.«114830_j23905787969963_1_alg».proof.Proof.Gen.KernelIdeal.Frame
import proofs.«114830_j23905787969963_1_alg».proof.Proof.LogLik
import proofs.«114830_j23905787969963_1_alg».proof.Proof.Pieces
import proofs.«114830_j23905787969963_1_alg».proof.Proof.StepAt
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Accum

open Cert.KernelIdeal Cert.KernelIdeal.Gen Cert.LogLik

variable (m : (ℓ : Loc nD τ sig) → Buf (Elt Ideal) ℓ)

/-- The three flattened arrays as the kernel region finds them. -/
abbrev means (c : Dev nD) : Flat.Idx → EReal := V m c main_v0
abbrev logvars (c : Dev nD) : Flat.Idx → EReal := V m c main_v1
abbrev obs (c : Dev nD) : Flat.Idx → EReal := V m c main_v2

/-- Where each window's block lies at point `t`: the inputs' at (row block `t / 48`, tile `t % 48`), the output's at
    row block `t / 48`. -/
theorem window_index : ∀ t : Fin cfg0.N,
    win0_0.index t (0 : Fin 2) = t.val / 48 ∧ win0_0.index t (1 : Fin 2) = t.val % 48
    ∧ win0_1.index t (0 : Fin 2) = t.val / 48 ∧ win0_1.index t (1 : Fin 2) = t.val % 48
    ∧ win0_2.index t (0 : Fin 2) = t.val / 48 ∧ win0_2.index t (1 : Fin 2) = t.val % 48
    ∧ win0_3.index t (0 : Fin 2) = t.val / 48 ∧ win0_3.index t (1 : Fin 2) = 0 :=
  (by decide +kernel : ∀ t : Fin grid0.N, _)

/-- The means' block at point `t`, entry `(r, j)`, is the flattened array at row `32 · (t / 48) + r`, position `16384 · (t % 48) + j`. -/
theorem mean_block (c : Dev nD) (t : Fin cfg0.N) (r : Fin 32) (j : Fin 16384)
    (hi : 32 * (t.val / 48) + r.val < 64) (hk : 16384 * (t.val % 48) + j.val < 786432) :
    (iblk m c 0 t : Vec Ideal S32x16384 .f32) (ix2 r j)
      = means m c (ix2 (⟨32 * (t.val / 48) + r.val, hi⟩ : Fin 64) (⟨16384 * (t.val % 48) + j.val, hk⟩ : Fin 786432)) := by
  obtain ⟨e0, e1, e2, e3, e4, e5, -⟩ := window_index t
  unfold iblk
  rw [View.read_apply]
  show V m c main_v0 (((cfg0.win 0).blk t).view.emb (ix2 r j)) = V m c main_v0 _
  refine congrArg (V m c main_v0) (funext fun a => Fin.ext ?_)
  match a with
  | ⟨0, _⟩ => show win0_0.index t (0 : Fin 2) * 32 + 1 * r.val = 32 * (t.val / 48) + r.val; omega
  | ⟨1, _⟩ => show win0_0.index t (1 : Fin 2) * 16384 + 1 * j.val = 16384 * (t.val % 48) + j.val; omega

/-- The same for the log-variances' block, -/
theorem logvar_block (c : Dev nD) (t : Fin cfg0.N) (r : Fin 32) (j : Fin 16384)
    (hi : 32 * (t.val / 48) + r.val < 64) (hk : 16384 * (t.val % 48) + j.val < 786432) :
    (iblk m c 1 t : Vec Ideal S32x16384 .f32) (ix2 r j)
      = logvars m c (ix2 (⟨32 * (t.val / 48) + r.val, hi⟩ : Fin 64) (⟨16384 * (t.val % 48) + j.val, hk⟩ : Fin 786432)) := by
  obtain ⟨e0, e1, e2, e3, e4, e5, -⟩ := window_index t
  unfold iblk
  rw [View.read_apply]
  show V m c main_v1 (((cfg0.win 1).blk t).view.emb (ix2 r j)) = V m c main_v1 _
  refine congrArg (V m c main_v1) (funext fun a => Fin.ext ?_)
  match a with
  | ⟨0, _⟩ => show win0_1.index t (0 : Fin 2) * 32 + 1 * r.val = 32 * (t.val / 48) + r.val; omega
  | ⟨1, _⟩ => show win0_1.index t (1 : Fin 2) * 16384 + 1 * j.val = 16384 * (t.val % 48) + j.val; omega

/-- and for the observations' block. -/
theorem obs_block (c : Dev nD) (t : Fin cfg0.N) (r : Fin 32) (j : Fin 16384)
    (hi : 32 * (t.val / 48) + r.val < 64) (hk : 16384 * (t.val % 48) + j.val < 786432) :
    (iblk m c 2 t : Vec Ideal S32x16384 .f32) (ix2 r j)
      = obs m c (ix2 (⟨32 * (t.val / 48) + r.val, hi⟩ : Fin 64) (⟨16384 * (t.val % 48) + j.val, hk⟩ : Fin 786432)) := by
  obtain ⟨e0, e1, e2, e3, e4, e5, -⟩ := window_index t
  unfold iblk
  rw [View.read_apply]
  show V m c main_v2 (((cfg0.win 2).blk t).view.emb (ix2 r j)) = V m c main_v2 _
  refine congrArg (V m c main_v2) (funext fun a => Fin.ext ?_)
  match a with
  | ⟨0, _⟩ => show win0_2.index t (0 : Fin 2) * 32 + 1 * r.val = 32 * (t.val / 48) + r.val; omega
  | ⟨1, _⟩ => show win0_2.index t (1 : Fin 2) * 16384 + 1 * j.val = 16384 * (t.val % 48) + j.val; omega

/-- The update at point `t`, row `r`: what was there plus tile `t % 48` of row `32 · (t / 48) + r`. -/
theorem step_point (c : Dev nD) (t : Fin cfg0.N) (acc : Vec Ideal S32x1 .f32) (r : Fin 32) (u : Fin 1) :
    step (F := Ideal) (iblk m c 0 t) (iblk m c 1 t) (iblk m c 2 t) acc (ix2 r u)
      = acc (ix2 r u) + tile (means m c) (logvars m c) (obs m c) (32 * (t.val / 48) + r.val) (t.val % 48) := by
  have hN : t.val < 96 := lt_of_lt_of_eq t.isLt (show cfg0.N = 96 from N_0)
  refine (step_apply (iblk m c 0 t) (iblk m c 1 t) (iblk m c 2 t) acc r u).trans ?_
  refine congrArg (acc (ix2 r u) + ·) ?_
  refine Eq.trans ?_ (tile_apply _ _ _ _ _).symm
  refine Finset.sum_congr rfl fun j _ => ?_
  have hi : 32 * (t.val / 48) + r.val < 64 := by have := r.isLt; omega
  have hk : 16384 * (t.val % 48) + j.val < 786432 := by have := j.isLt; omega
  rw [cell_of_lt _ _ _ hi hk, mean_block m c t r j hi hk, logvar_block m c t r j hi hk, obs_block m c t r j hi hk]

/-- At the first point of a row block the accumulator ends at the update of the zero block. -/
theorem scratch_at_first (c : Dev nD) (t : Fin cfg0.N) (h0 : t.val % 48 = 0) :
    (outsAt0 m c t.val t.isLt).2 = step (iblk m c 0 t) (iblk m c 1 t) (iblk m c 2 t) zeroBlock := by
  have h1 : ¬t.val % 48 = 47 := by omega
  rw [outsAt0_A m c t h0 h1]
  dsimp only
  exact scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

/-- At every other point it ends at the update of what the point before left. -/
theorem scratch_at_later (c : Dev nD) (t : Fin cfg0.N) (h0 : ¬t.val % 48 = 0) :
    (outsAt0 m c t.val t.isLt).2 = step (iblk m c 0 t) (iblk m c 1 t) (iblk m c 2 t)
      (outsAt0 m c (t.val - 1) (Nat.lt_of_le_of_lt (Nat.sub_le _ _) t.isLt)).2 := by
  by_cases h1 : t.val % 48 = 47
  · rw [outsAt0_C m c t h0 h1]
    dsimp only
    exact scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2
  · rw [outsAt0_B m c t h0 h1]
    dsimp only
    exact scratch_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
      (iblk m c 0 t) (iblk m c 1 t) (iblk m c 2 t) (outsAt0 m c (t.val - 1) (Nat.lt_of_le_of_lt (Nat.sub_le _ _) t.isLt)).2

/-- At the last point of a row block the output block holds what the accumulator holds. -/
theorem out_at_last (c : Dev nD) (t : Fin cfg0.N) (h1 : t.val % 48 = 47) :
    (outsAt0 m c t.val t.isLt).1 = (outsAt0 m c t.val t.isLt).2 := by
  have h0 : ¬t.val % 48 = 0 := by omega
  rw [outsAt0_C m c t h0 h1]
  dsimp only
  exact (out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2).trans
    (scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2).symm

/-- THE RUNNING SUM: after point `n` the accumulator holds, at row `r`, the sum of tiles `0 … n % 48` of row
    `32 · (n / 48) + r`. -/
theorem running (c : Dev nD) : ∀ (n : ℕ) (hn : n < cfg0.N) (r : Fin 32) (u : Fin 1),
    (outsAt0 m c n hn).2 (ix2 r u)
      = partialRow (means m c) (logvars m c) (obs m c) (32 * (n / 48) + r.val) (n % 48)
  | 0, hn, r, u => by
    refine (congrFun (scratch_at_first m c ⟨0, hn⟩ rfl) (ix2 r u)).trans ?_
    refine (step_point m c ⟨0, hn⟩ zeroBlock r u).trans ?_
    rw [zeroBlock_apply, zero_add]
    exact (partialRow_zero _ _ _ _).symm
  | n + 1, hn, r, u => by
    by_cases h0 : (n + 1) % 48 = 0
    · refine (congrFun (scratch_at_first m c ⟨n + 1, hn⟩ h0) (ix2 r u)).trans ?_
      refine (step_point m c ⟨n + 1, hn⟩ zeroBlock r u).trans ?_
      rw [zeroBlock_apply, zero_add]
      show tile _ _ _ (32 * ((n + 1) / 48) + r.val) ((n + 1) % 48) = _
      rw [h0]
      exact (partialRow_zero _ _ _ _).symm
    · refine (congrFun (scratch_at_later m c ⟨n + 1, hn⟩ h0) (ix2 r u)).trans ?_
      refine (step_point m c ⟨n + 1, hn⟩ _ r u).trans ?_
      show (outsAt0 m c n _).2 (ix2 r u) + tile _ _ _ (32 * ((n + 1) / 48) + r.val) ((n + 1) % 48) = _
      rw [running c n (Nat.lt_of_succ_lt hn) r u]
      have e1 : (n + 1) / 48 = n / 48 := by omega
      have e2 : (n + 1) % 48 = n % 48 + 1 := by omega
      rw [e1, e2, partialRow_succ]

end Cert.KernelIdeal.Accum

end
-- ==== Proof.Result.lean ====
/-
  The kernel's result: each batch row's sum of terms.

  Output block `t / 48` is written back at the two points with `t % 48 = 47`; there it holds the accumulator, which by then
  is the sum of all `48` tiles of each of its rows, that is the whole row's sum. The two blocks (rows `0 … 31`, `32 … 63`)
  cover the [64, 1] array, so after the region it holds every row's sum; the reshape that follows only drops the unit
  axis; and the flattened arrays the region reads are the reshaped arguments.
-/
import proofs.«114830_j23905787969963_1_alg».proof.Proof.Gen.KernelIdeal.Frame
import proofs.«114830_j23905787969963_1_alg».proof.Proof.LogLik
import proofs.«114830_j23905787969963_1_alg».proof.Proof.Running
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.LogLik

variable (m : (ℓ : Loc nD τ sig) → Buf (Elt Ideal) ℓ) (ρ : Dev nD → PrngReg)

/-- What the [64, 1] array holds after the region: each row's sum. -/
def rowTotals (c : Dev nD) : Buf (Elt Ideal) ((c : Thread nD τ).loc main_v3) :=
  fun y => rowLL (means m c) (logvars m c) (obs m c) (ix1 (⟨(y 0).val, (y 0).isLt⟩ : Fin 64))

/-- The accumulator after point `t`, at any row of the block. -/
theorem scratch_row (c : Dev nD) (t : Fin cfg0.N) (y : S32x1.Idx) :
    (outsAt0 m c t.val t.isLt).2 y
      = partialRow (means m c) (logvars m c) (obs m c) (32 * (t.val / 48) + (y 0).val) (t.val % 48) := by
  obtain ⟨r, u, rfl⟩ : ∃ (r : Fin 32) (u : Fin 1), y = ix2 r u := ⟨y 0, y 1, eq_ix2 y⟩
  exact running m c t.val t.isLt r u

/-- What a write-back writes is its block of the row sums. -/
theorem flushed_eq (c : Dev nD) (t : Fin cfg0.N) (hf : (cfg0.win 3).flush t = true) :
    (dats m 0 c).flushed 3 t = ((cfg0.win 3).blk t).view.read (Elt Ideal) (rowTotals m c) := by
  have h47 : t.val % 48 = 47 := (flush0_3 t).mp hf
  have hN : t.val < 96 := lt_of_lt_of_eq t.isLt (show cfg0.N = 96 from N_0)
  obtain ⟨-, -, -, -, -, -, e6, e7⟩ := window_index t
  show (cfg0.win 3).cut (grid0.coords t) ((dats m 0 c).after 3 t) = _
  rw [after0_3, out_at_last m c t h47]
  funext y
  rw [View.read_apply]
  refine Eq.trans ?_ (cast_eq _ _).symm
  refine Eq.trans (scratch_row m c t ((cfg0.win 3).xinj (grid0.coords t) y)) ?_
  rw [h47]
  have hy : (y 0).val < 32 := (y 0).isLt
  have hi : 32 * (t.val / 48) + (y 0).val < 64 := by omega
  refine (partialRow_last _ _ _ (⟨32 * (t.val / 48) + (y 0).val, hi⟩ : Fin 64)).trans ?_
  unfold rowTotals
  refine congrArg (rowLL _ _ _) (congrArg ix1 (Fin.ext ?_))
  show 32 * (t.val / 48) + (y 0).val = win0_3.index t (0 : Fin 2) * 32 + 1 * (y 0).val
  omega

/-- An index of the [64, 1] array lies in point `t`'s output block iff each coordinate lies in the block's range. -/
theorem mem_block (t : Fin cfg0.N) (i : S64x1.Idx) :
    i ∈ ((cfg0.win 3).blk t).view.set
      ↔ ∀ a : Fin 2, win0_3.index t a * S32x1.size a ≤ (i a).val ∧ (i a).val < win0_3.index t a * S32x1.size a + S32x1.size a := by
  show i ∈ ((View.whole main_v3).slice (win0_3.rect t)).set ↔ _
  rw [View.set_slice_whole, Rect.mem_set_unit]
  exact Iff.rfl

/-- Row `i` is written back at the last point of its row block, point `48 · (i / 32) + 47`. -/
theorem covered (i : S64x1.Idx) :
    ∃ t : Fin cfg0.N, (cfg0.win 3).flush t = true ∧ i ∈ ((cfg0.win 3).blk t).view.set := by
  have hi0 : (i 0).val < 64 := (i 0).isLt
  have hi1 : (i 1).val < 1 := (i 1).isLt
  have hN : cfg0.N = 96 := N_0
  have ht : 48 * ((i 0).val / 32) + 47 < cfg0.N := by rw [hN]; omega
  obtain ⟨-, -, -, -, -, -, e6, e7⟩ := window_index ⟨48 * ((i 0).val / 32) + 47, ht⟩
  have e6' : win0_3.index ⟨48 * ((i 0).val / 32) + 47, ht⟩ (0 : Fin 2) = (48 * ((i 0).val / 32) + 47) / 48 := e6
  refine ⟨⟨48 * ((i 0).val / 32) + 47, ht⟩, (flush0_3 _).mpr (by show (48 * ((i 0).val / 32) + 47) % 48 = 47; omega), ?_⟩
  rw [mem_block]
  intro a
  match a with
  | ⟨0, _⟩ =>
    show win0_3.index ⟨48 * ((i 0).val / 32) + 47, ht⟩ (0 : Fin 2) * 32 ≤ (i 0).val
      ∧ (i 0).val < win0_3.index ⟨48 * ((i 0).val / 32) + 47, ht⟩ (0 : Fin 2) * 32 + 32
    omega
  | ⟨1, _⟩ =>
    show win0_3.index ⟨48 * ((i 0).val / 32) + 47, ht⟩ (1 : Fin 2) * 1 ≤ (i 1).val
      ∧ (i 1).val < win0_3.index ⟨48 * ((i 0).val / 32) + 47, ht⟩ (1 : Fin 2) * 1 + 1
    omega

/-- After the region the [64, 1] array holds every row's sum. -/
theorem final (c : Dev nD) : (dats m 0 c).arrAt 3 cfg0.N = rowTotals m c :=
  (dats m 0 c).arrAt_eq_of_cover 3 (rowTotals m c) (flushed_eq m c) covered

/-- The flattened arrays the region reads are the reshaped arguments: the means, -/
theorem means_eq (c : Dev nD) :
    means m c = shapeCast S64x786432 (m ((c : Thread nD τ).loc main_arg0)) shapeCasts_S64x3x512x512_S64x786432 := by
  show StableHlo.after hostOps0 (fun b => m (c, b)) (Proc.devRef .tc main_v0) = _
  after_results
  rfl

/-- the log-variances, -/
theorem logvars_eq (c : Dev nD) :
    logvars m c = shapeCast S64x786432 (m ((c : Thread nD τ).loc main_arg1)) shapeCasts_S64x3x512x512_S64x786432 := by
  show StableHlo.after hostOps0 (fun b => m (c, b)) (Proc.devRef .tc main_v1) = _
  after_results
  rfl

/-- and the observations. -/
theorem obs_eq (c : Dev nD) :
    obs m c = shapeCast S64x786432 (m ((c : Thread nD τ).loc main_arg2)) shapeCasts_S64x3x512x512_S64x786432 := by
  show StableHlo.after hostOps0 (fun b => m (c, b)) (Proc.devRef .tc main_v2) = _
  after_results
  rfl

/-- The reshape after the region drops the unit axis of the array of row sums. -/
theorem tail_eq (c : Dev nD) :
    Pipeline.afterTail₀ cfgs (dats m) 0 (V0 m) [hostOps1] c main_v4
      = shapeCast S64 (rowTotals m c) shapeCasts_S64x1_S64 := by
  have e : Pipeline.withArrays (cfgs 0).spec c (V0 m c) (fun w => (dats m 0 c).arrAt w (cfgs 0).N) (Proc.devRef .tc main_v3)
      = rowTotals m c :=
    (Pipeline.withArrays_arr spec0 launch0.win.arr_inj c _ _ 3).trans (final m c)
  unfold Pipeline.afterTail₀
  show StableHlo.after hostOps1 _ (Proc.devRef .tc main_v4) = _
  after_results
  funext i
  show shapeCast S64 (Pipeline.withArrays (cfgs 0).spec c (V0 m c) (fun w => (dats m 0 c).arrAt w (cfgs 0).N)
      (Proc.devRef .tc main_v3)) shapeCasts_S64x1_S64 i = _
  rw [e]

/-- So the program's result is, per batch row, the sum of the terms of the flattened arguments. -/
theorem result_eq (c : Dev nD) :
    Pipeline.afterTail₀ cfgs (dats m) 0 (V0 m) [hostOps1] c main_v4
      = rowLL (shapeCast S64x786432 (m ((c : Thread nD τ).loc main_arg0)) shapeCasts_S64x3x512x512_S64x786432)
          (shapeCast S64x786432 (m ((c : Thread nD τ).loc main_arg1)) shapeCasts_S64x3x512x512_S64x786432)
          (shapeCast S64x786432 (m ((c : Thread nD τ).loc main_arg2)) shapeCasts_S64x3x512x512_S64x786432) := by
  rw [tail_eq, ← means_eq m c, ← logvars_eq m c, ← obs_eq m c]
  funext i
  obtain ⟨r, rfl⟩ : ∃ r : Fin 64, i = ix1 r := ⟨i 0, eq_ix1 i⟩
  refine (shapeCast_apply (rowTotals m c) shapeCasts_S64x1_S64 (ix1 r) (ix2 r (0 : Fin 1)) ?_).trans ?_
  · show (S64x1.rowMajor (ix2 r (0 : Fin 1))).val = (S64.rowMajor (ix1 r)).val
    rw [Shape.rowMajor_val_two, Shape.rowMajor_val_one]; show r.val * 1 + 0 = r.val; omega
  · rfl

/-- The run, read: the result at the row sums, the arguments unchanged. -/
theorem run : θ_run defs (onTc (τ := τ) (main (F := Ideal))) ⟨m, fun _ => 0, ρ⟩ fun r => ∀ c : Dev nD,
      r.2.mem ((c : Thread nD τ).loc main_v4)
        = rowLL (shapeCast S64x786432 (m ((c : Thread nD τ).loc main_arg0)) shapeCasts_S64x3x512x512_S64x786432)
            (shapeCast S64x786432 (m ((c : Thread nD τ).loc main_arg1)) shapeCasts_S64x3x512x512_S64x786432)
            (shapeCast S64x786432 (m ((c : Thread nD τ).loc main_arg2)) shapeCasts_S64x3x512x512_S64x786432)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Accum

end
-- ==== Proof.RefValue.lean ====
/-
  The reference computes the row sums of the terms of the flattened arguments.

  The reference evaluates the term at every position of the [64, 3, 512, 512] arrays, flattens the result to
  [64, 786432] and sums each row from zero. Flattening only renames positions (row-major order), so the flattened array
  of terms is the array of terms of the flattened arguments; the host's `exp (−λ)`, quotient, `tanh`, `log`, maximum and
  rounding to nearest-even are, on the extended reals, the very functions the term is written with; and `0 + s = s`.
-/
import proofs.«114830_j23905787969963_1_alg».proof.Proof.Gen.ReferenceIdeal.Read
import proofs.«114830_j23905787969963_1_alg».proof.Proof.LogLik
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.LogLik

/-- Flattening reads the four-dimensional array at the position with the same row-major rank. -/
theorem flat_apply (x : S64x3x512x512.Idx → EReal) (i : S64x786432.Idx) :
    shapeCast S64x786432 x shapeCasts_S64x3x512x512_S64x786432 i = x (idx_main_v51 i) := by
  refine shapeCast_apply x shapeCasts_S64x3x512x512_S64x786432 i (idx_main_v51 i) ?_
  rw [Shape.rowMajor_val_four, Shape.rowMajor_val_two]
  have h0 : (i 0).val < 64 := (i 0).isLt
  have h1 : (i 1).val < 786432 := (i 1).isLt
  show ((((i 0).val * 786432 + (i 1).val) / 786432 * 3 + ((i 0).val * 786432 + (i 1).val) / 262144 % 3) * 512
      + ((i 0).val * 786432 + (i 1).val) / 512 % 512) * 512 + ((i 0).val * 786432 + (i 1).val) % 512
    = (i 0).val * 786432 + (i 1).val
  omega

/-- The reference's pointwise stage, at any position, is the term of the three arguments there. -/
theorem term_apply (x0 x1 x2 : S64x3x512x512.Idx → EReal) (q : S64x3x512x512.Idx) :
    val_main_v50 (F := Ideal) x0 x1 x2 q = ll (x0 q) (x1 q) (x2 q) := by
  simp only [
    val_main_v50, val_main_v49, val_main_call1_v1, val_main_call1_v0, val_main_cst_16, val_main_v48,
    val_main_v47, val_main_v46, val_main_cst_15, val_main_v45, val_main_v44, val_main_cst_14, val_main_v43,
    val_main_v42, val_main_v41, val_main_cst_13, val_main_v40, val_main_v39, val_main_v38, val_main_v37,
    val_main_v36, val_main_cst_12, val_main_v35, val_main_v34, val_main_v33, val_main_cst_11, val_main_v32,
    val_main_v31, val_main_cst_10, val_main_v30, val_main_v29, val_main_cst_9, val_main_v28, val_main_v27,
    val_main_v26, val_main_cst_8, val_main_v25, val_main_v24, val_main_v23, val_main_v22, val_main_v21,
    val_main_cst_7, val_main_v20, val_main_v19, val_main_v18, val_main_cst_6, val_main_v17, val_main_v16,
    val_main_v15, val_main_v14, val_main_v13, val_main_cst_5, val_main_v12, val_main_v11, val_main_cst_4,
    val_main_v10, val_main_v9, val_main_cst_3, val_main_v8, val_main_v7, val_main_cst_2, val_main_v6,
    val_main_v5, val_main_v4, val_main_cst_1, val_main_v3, val_main_v2, val_main_cst_0, val_main_v1,
    val_main_v0, val_main_cst,
    Host.log, Host.tanh, Host.exp, Host.negf, Host.divf, Host.roundeven, maximumf, subf, mulf, addf, broadcastInDim, constant, id,
    Ideal.hostUnary_log_def, Ideal.hostUnary_tanh_def, Ideal.hostUnary_exp_def, Ideal.hostUnary_roundeven_def,
    Ideal.hostNegf_def, Ideal.negf_def, Ideal.hostDivf_def, Ideal.maximumf_def, Ideal.subf_def, Ideal.mulf_def,
    Ideal.addf_def, Ideal.ofBits_def]
  rfl

/-- The reference's result is the row sums of the terms of the flattened arguments. -/
theorem result_eq (x0 x1 x2 : S64x3x512x512.Idx → EReal) :
    val_main_v52 (F := Ideal) x0 x1 x2
      = rowLL (shapeCast S64x786432 x0 shapeCasts_S64x3x512x512_S64x786432)
          (shapeCast S64x786432 x1 shapeCasts_S64x3x512x512_S64x786432)
          (shapeCast S64x786432 x2 shapeCasts_S64x3x512x512_S64x786432) := by
  funext i
  obtain ⟨r, rfl⟩ : ∃ r : Fin 64, i = ix1 r := ⟨i 0, eq_ix1 i⟩
  refine (val_main_v52_apply x0 x1 x2 (ix1 r)).trans ?_
  refine (congrArg (· + _) (show val_main_cst_17 (F := Ideal) (Shape.Idx.first h_S_) = 0 from Ideal.ofBits_zero_f32)).trans ?_
  refine (zero_add _).trans ?_
  refine Eq.trans ?_ (rowLL_apply _ _ _ (ix1 r)).symm
  refine Finset.sum_congr rfl fun (k : Fin 786432) _ => ?_
  show val_main_v51 (F := Ideal) x0 x1 x2 (idx_main_v52 (ix1 r) k)
    = ll (shapeCast S64x786432 x0 shapeCasts_S64x3x512x512_S64x786432 (ix2 r k))
        (shapeCast S64x786432 x1 shapeCasts_S64x3x512x512_S64x786432 (ix2 r k))
        (shapeCast S64x786432 x2 shapeCasts_S64x3x512x512_S64x786432 (ix2 r k))
  have e : idx_main_v52 (ix1 r) k = ix2 r k :=
    funext fun a => Fin.ext (by match a with | ⟨0, _⟩ => rfl | ⟨1, _⟩ => rfl)
  rw [e, val_main_v51_apply, flat_apply, flat_apply, flat_apply]
  exact term_apply x0 x1 x2 _

end Cert.ReferenceIdeal.RefValue

end
-- ==== Proof.lean ====
/-
  The discretized-Gaussian log-likelihood: the tiled kernel against the whole-array reference, over the extended reals.

  Both programs evaluate, at every position of three [64, 3, 512, 512] arrays (means, log-variances, observations), the
  same term — the observation binned to its bin centre, the tanh approximation of the normal distribution function at
  the two bin edges scaled by `exp (−logvar)`, the difference clamped below by `10⁻¹⁰`, its logarithm — and sum the
  terms over each batch entry's `3 · 512 · 512 = 786432` positions.

  The reference computes the terms on the four-dimensional arrays, flattens to [64, 786432] and sums each row from zero.
  The kernel flattens first and walks a 2 × 48 grid: at point `(b, n)` it adds, for each of the `32` rows of row block `b`,
  the sum of the `16384` terms of tile `n` to an accumulator that it resets at `n = 0` and copies out at `n = 47`. So the
  accumulator after point `(b, n)` is the sum of tiles `0 … n` of each row (induction on the point), the copy at `n = 47`
  is the whole row's sum, the two row blocks cover the [64, 1] result, and the final reshape drops the unit axis.

  The one law that joins the two sides is that a sum over `48 · 16384` positions is the sum of its `48` tile sums. On the
  extended reals addition is commutative and associative unconditionally, so the law needs no finiteness: the
  precondition is never opened. Flattening commutes with a pointwise term, and the host's operations are the kernel's
  on the extended reals (`0 − λ = −λ`). The idealization rewrote nothing, so that conjunct is trivial; the kernels' frames
  are the generated ones, and the reference's frame is its run with the result dropped.
-/
import proofs.«114830_j23905787969963_1_alg».proof.Defs
import proofs.«114830_j23905787969963_1_alg».proof.Proof.Gen.Kernel
import proofs.«114830_j23905787969963_1_alg».proof.Proof.Gen.Kernel.Skeleton
import proofs.«114830_j23905787969963_1_alg».proof.Proof.Gen.Kernel.Launch
import proofs.«114830_j23905787969963_1_alg».proof.Proof.Gen.Kernel.Points
import proofs.«114830_j23905787969963_1_alg».proof.Proof.Gen.Kernel.Frame
import proofs.«114830_j23905787969963_1_alg».proof.Proof.Gen.KernelIdeal
import proofs.«114830_j23905787969963_1_alg».proof.Proof.Gen.KernelIdeal.Skeleton
import proofs.«114830_j23905787969963_1_alg».proof.Proof.Gen.KernelIdeal.Launch
import proofs.«114830_j23905787969963_1_alg».proof.Proof.Gen.KernelIdeal.Points
import proofs.«114830_j23905787969963_1_alg».proof.Proof.Gen.KernelIdeal.Frame
import proofs.«114830_j23905787969963_1_alg».proof.Proof.Gen.ReferenceIdeal
import proofs.«114830_j23905787969963_1_alg».proof.Proof.Gen.Pre_finite_inputs
import proofs.«114830_j23905787969963_1_alg».proof.Proof.Gen.ReferenceIdeal.Run
import proofs.«114830_j23905787969963_1_alg».proof.Proof.Gen.ReferenceIdeal.Read
import proofs.«114830_j23905787969963_1_alg».proof.Proof.Result
import proofs.«114830_j23905787969963_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with, per batch row, the sum of the terms of the flattened arguments. -/
theorem algebraic : Cert.algebraic_KernelIdeal_ReferenceIdeal := by
  intro m ρ m' ρ' _ hagree
  refine ⟨_, Cert.KernelIdeal.Accum.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
